-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel

variable [Facts]

def fn {F : FTy → Type} [FloatOps F] (main_arg0 : FVec F S16x512x32x32 .f32) (main_arg1 : FVec F S16x512x32x32 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S16x512x32x32 .f32 := Host.absf main_arg1
  let main_cst_0 : FVec F S_ .f32 := constant S_ .f32 0x7F800000#32
  let main_v5 : FVec F S16x512x32x32 .f32 := broadcastInDim S16x512x32x32 ![] bcast_S_S16x512x32x32 main_cst_0
  let main_v6 : IVec S16x512x32x32 1 := cmpf .olt main_v4 main_v5
  let main_c_1 : IVec S_ 1 := constantI S_ 1 1#1
  let main_v7 : IVec S_ 1 := (fun x v => Host.reduce IntOp.andi x v reducesTo_S16x512x32x32_S_d0_1_2_3 h_S_) main_v6 main_c_1
  let main_v8 : IVec S_ 1 := andi main_v3 main_v7
  main_v8
-- ==== Kernel.lean ====
abbrev S16x512x32x32 : Shape := ⟨4, ![16, 512, 32, 32]⟩
abbrev S16x512x1024 : Shape := ⟨3, ![16, 512, 1024]⟩
abbrev S1x1 : Shape := ⟨2, ![1, 1]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S16x512x32x32, .f32⟩
  | .hbm, ⟨1, _⟩ => ⟨S16x512x32x32, .f32⟩
  | .hbm, ⟨2, _⟩ => ⟨S16x512x1024, .f32⟩
  | .hbm, ⟨3, _⟩ => ⟨S16x512x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16x512x32x32_S16x512x1024 : S16x512x32x32.ShapeCasts S16x512x1024
  inb_S1x1_S1x1_0_0 : ∀ a, (![0, 0] : Fin 2 → Nat) a + S1x1.size a ≤ S1x1.size a
  h_S1x1 : 0 < S1x1.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  transposes_S512x1024_p1_0_S1024x512 : S512x1024.Transposes [1, 0] S1024x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x1024.size a
  hwx0_1 : ∀ i : grid0.Coords, EltTy.bits .f32 = 32 ∨ (Rect.block (s := S16x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x32x32 : Shape := ⟨4, ![16, 512, 32, 32]⟩
abbrev S16x512x1024 : Shape := ⟨3, ![16, 512, 1024]⟩
abbrev S16x512x512 : Shape := ⟨3, ![16, 512, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S16x512x32x32, .f32⟩
  | .hbm, ⟨2, _⟩ => ⟨S16x512x1024, .f32⟩
  | .hbm, ⟨3, _⟩ => ⟨S16x512x512, .f32⟩
  | .hbm, ⟨4, _⟩ => ⟨S16x512x1024, .f32⟩
  | .hbm, ⟨5, _⟩ => ⟨S16x512x512, .f32⟩
  | .hbm, ⟨6, _⟩ => ⟨S16x512x512, .f32⟩
  | .hbm, ⟨7, _⟩ => ⟨S16x512x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S16x512x32x32_S16x512x1024 : S16x512x32x32.ShapeCasts S16x512x1024
  reducesTo_S16x512x512_S_d0_1_2 : S16x512x512.ReducesTo [0, 1, 2] S_
  h_S_ : 0 < S_.numel
  dot_S16x512x1024_S16x512x1024_S16x512x512_2_2_1_1_0_0_wf : DotDims.WF S16x512x1024 S16x512x1024 S16x512x512 [2] [2] [1] [1] [0] [0]

variable [Facts₀]

def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf

class Facts : Prop extends Facts₀ where

variable [Facts]
-- ==== Proof.GramSum.lean ====
/-
  The mathematics both programs compute, stated once over the two flattened feature arrays
  `A0 A1 : [16, 512, 1024] → EReal`.

  For a batch `b` the Gram matrix of `A` has entry `(c, d)` equal to `∑ k, A (b, c, k) * A (b, d, k)`.
  The loss of batch `b` is the sum over all `(c, d)` of the squared difference of the two Gram entries,
  and the total is the sum of the sixteen batch losses.  One program adds the batch losses one after the
  other into a running value that starts at zero; the other sums the squared differences over the whole
  index set `[16, 512, 512]` at once.  Addition on the extended reals is commutative and associative, so
  both are the same number; no finiteness is needed.
-/
import Idealize.ShloMosaic.Lib.ValueIdx
import Idealize.ShloMosaic.PureOps.Ideal.Laws

noncomputable section

open scoped BigOperators

namespace Cert.GramSum

open Idealize.ShloMosaic Idealize.ShloMosaic.ValueIdx

/-- A flattened feature array: batch, channel, position. -/
abbrev Arr : Type := (⟨3, ![16, 512, 1024]⟩ : Shape).Idx → EReal

/-- Entry `(c, d)` of batch `b`'s Gram matrix: the inner product of channels `c` and `d` over the 1024 positions. -/
def gram (A : Arr) (b : Fin 16) (c d : Fin 512) : EReal :=
  ∑ k : Fin 1024, A (ix3 b c k) * A (ix3 b d k)

/-- The squared difference of the two Gram matrices at `(b, c, d)`. -/
def sqdiff (A0 A1 : Arr) (b : Fin 16) (c d : Fin 512) : EReal :=
  (gram A1 b c d - gram A0 b c d) * (gram A1 b c d - gram A0 b c d)

/-- The loss of one batch: the squared differences summed over rows, each row summed over its columns. -/
def batchLoss (A0 A1 : Arr) (b : Fin 16) : EReal :=
  ∑ c : Fin 512, ∑ d : Fin 512, sqdiff A0 A1 b c d

/-- The total over the sixteen batches. -/
def total (A0 A1 : Arr) : EReal := ∑ b : Fin 16, batchLoss A0 A1 b

/-! ## A sum over a rank-3 index set is the triple sum over its coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Summing the squared differences over the whole index set `[16, 512, 512]` gives the total. -/
theorem sum_all_eq_total (A0 A1 : Arr) (f : (⟨3, ![16, 512, 512]⟩ : Shape).Idx → EReal)
    (hf : ∀ b c d, f (ix3 b c d) = sqdiff A0 A1 b c d) : ∑ i, f i = total A0 A1 := by
  rw [sum_idx3]
  unfold total batchLoss
  exact Finset.sum_congr rfl fun b _ => Finset.sum_congr rfl fun c _ => Finset.sum_congr rfl fun d _ => hf b c d

/-! ## A running value that starts at zero and takes one term per step -/

/-- The running value after step `n`: zero plus the first term, then one more term per step. -/
def running (f : ℕ → EReal) : ℕ → EReal
  | 0 => 0 + f 0
  | n + 1 => running f n + f (n + 1)

theorem running_eq_sum (f : ℕ → EReal) (n : ℕ) : running f n = ∑ b ∈ Finset.range (n + 1), f b := by
  induction n with
  | zero => simp [running]
  | succ n ih => rw [running, ih, Finset.sum_range_succ (n := n + 1)]

/-- After the sixteenth step the running value over the batch losses is the total. -/
theorem running_total (A0 A1 : Arr) (f : ℕ → EReal)
    (hf : ∀ b : Fin 16, f b.val = batchLoss A0 A1 b) : running f 15 = total A0 A1 := by
  rw [running_eq_sum, total, Fin.sum_univ_eq_sum_range (fun b => f b) 16 |>.symm]
  exact Finset.sum_congr rfl fun b _ => hf b

end Cert.GramSum

end
-- ==== Proof.RefValue.lean ====
/-
  The reference program's value.  Its flattened arguments `A0 = reshape feat` and `A1 = reshape feat_decod`
  are arrays over `[16, 512, 1024]`.  The batched contraction over the last axis gives, at `(b, c, d)`, the
  Gram entry `∑ k, A (b, c, k) * A (b, d, k)`; the difference of the two Gram arrays is squared entry by
  entry and summed over the whole index set `[16, 512, 512]` starting from zero.  So the scalar before the
  final division is the total of `GramSum`.
-/
import proofs.«133856_j50878182588704_1_alg».proof.Proof.Gen.ReferenceIdeal.Run
import proofs.«133856_j50878182588704_1_alg».proof.Proof.Gen.ReferenceIdeal.Read
import proofs.«133856_j50878182588704_1_alg».proof.Proof.GramSum

noncomputable section

open scoped BigOperators

namespace Cert.ReferenceIdeal.RefValue

open Cert.ReferenceIdeal Cert.ReferenceIdeal.Read Idealize.ShloMosaic Idealize.ShloMosaic.ValueIdx Cert.GramSum

/-- The left operand of the contraction at output `(b, c, d)` and position `k` is read at `(b, c, k)`. -/
theorem lidx1 (b : Fin 16) (c d : Fin 512) (k : Fin 1024) : lidx_main_v1 (ix3 b c d) k = ix3 b c k :=
  funext fun a => Fin.ext (by match a with | ⟨0, _⟩ => rfl | ⟨1, _⟩ => rfl | ⟨2, _⟩ => rfl)
/-- The right operand is read at `(b, d, k)`. -/
theorem ridx1 (b : Fin 16) (c d : Fin 512) (k : Fin 1024) : ridx_main_v1 (ix3 b c d) k = ix3 b d k :=
  funext fun a => Fin.ext (by match a with | ⟨0, _⟩ => rfl | ⟨1, _⟩ => rfl | ⟨2, _⟩ => rfl)
theorem lidx3 (b : Fin 16) (c d : Fin 512) (k : Fin 1024) : lidx_main_v3 (ix3 b c d) k = ix3 b c k :=
  funext fun a => Fin.ext (by match a with | ⟨0, _⟩ => rfl | ⟨1, _⟩ => rfl | ⟨2, _⟩ => rfl)
theorem ridx3 (b : Fin 16) (c d : Fin 512) (k : Fin 1024) : ridx_main_v3 (ix3 b c d) k = ix3 b d k :=
  funext fun a => Fin.ext (by match a with | ⟨0, _⟩ => rfl | ⟨1, _⟩ => rfl | ⟨2, _⟩ => rfl)

variable (x0 x1 : (⟨S16x512x32x32, .f32⟩ : BufTy).Contents (Elt Ideal))

/-- The first contraction at `(b, c, d)` is the Gram entry of the flattened first argument. -/
theorem gram0 (b : Fin 16) (c d : Fin 512) :
    val_main_v1 (F := Ideal) x0 (ix3 b c d) = gram (val_main_v0 (F := Ideal) x0) b c d := by
  rw [val_main_v1_apply]
  unfold gram
  exact Finset.sum_congr rfl fun k _ => by rw [lidx1, ridx1]

/-- The second contraction at `(b, c, d)` is the Gram entry of the flattened second argument. -/
theorem gram1 (b : Fin 16) (c d : Fin 512) :
    val_main_v3 (F := Ideal) x1 (ix3 b c d) = gram (val_main_v2 (F := Ideal) x1) b c d := by
  rw [val_main_v3_apply]
  unfold gram
  exact Finset.sum_congr rfl fun k _ => by rw [lidx3, ridx3]

/-- The squared difference array at `(b, c, d)`. -/
theorem sq_apply (b : Fin 16) (c d : Fin 512) :
    val_main_v5 (F := Ideal) x0 x1 (ix3 b c d)
      = sqdiff (val_main_v0 (F := Ideal) x0) (val_main_v2 (F := Ideal) x1) b c d := by
  rw [val_main_v5_apply, val_main_v4_apply, gram0, gram1]
  rfl

/-- The sum over every entry, from zero, is the total of the batch losses. -/
theorem sum_eq_total :
    val_main_v6 (F := Ideal) x0 x1 = fun _ => total (val_main_v0 (F := Ideal) x0) (val_main_v2 (F := Ideal) x1) := by
  funext i
  rw [val_main_v6_apply, sum_all_eq_total _ _ _ (sq_apply x0 x1)]
  show Ideal.ofBits .f32 0x00000000#32 + _ = _
  rw [Ideal.ofBits_zero_f32, zero_add]

end Cert.ReferenceIdeal.RefValue

end
-- ==== Proof.KernelPayload.lean ====
/-
  What one grid step adds.  The step holds one batch of each flattened argument as a block
  `x : [1, 512, 1024]`.  With the leading unit axis dropped, the block times its own transpose, accumulated
  from zero, has entry `(c, d)` equal to `∑ k, x (0, c, k) * x (0, d, k)` (the narrowing of the operands to
  a shorter float format does nothing to an exact value).  The difference of the two products is squared
  entry by entry, each row is summed over its columns, and the 512 row sums are summed; the step stores
  the buffer's previous value plus that number.
-/
import proofs.«133856_j50878182588704_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product of a block with its own transpose -/

/-- The dimension numbers of the body's two products: rows of the left operand against columns of the right. -/
abbrev DD : DotDims S512x1024 S1024x512 S512x512 := dot_S512x1024_S1024x512_S512x512_1_0_0_1_n_n

theorem lhs_DD_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_DD_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_DD_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_DD_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- A `[512, 1024]` matrix times a `[1024, 512]` matrix into a zero accumulator, at `(c, d)`. -/
theorem matmul_zero_apply (l : FVec Ideal S512x1024 .bf16) (r : FVec Ideal S1024x512 .bf16) (c d : Fin 512) :
    matmul dot_S512x1024_S1024x512_S512x512_1_0_0_1_n_n none l r (constant (F := Ideal) S512x512 .f32 0x00000000#32) (ix2 c d)
      = ∑ k : Fin 1024, l (ix2 c k) * r (ix2 k d) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 c d) ((contrEquiv1 dot_S512x1024_S1024x512_S512x512_1_0_0_1_n_n 1024 rfl rfl).symm k) = ix2 c k := funext fun a => Fin.ext (by
    match a with
    | ⟨0, _⟩ => exact lhs_DD_0 _ _
    | ⟨1, _⟩ => exact (lhs_DD_1 _ _).trans hk)
  have er : dot_S512x1024_S1024x512_S512x512_1_0_0_1_n_n.rhsIdx (ix2 c d) ((contrEquiv1 dot_S512x1024_S1024x512_S512x512_1_0_0_1_n_n 1024 rfl rfl).symm k) = ix2 k d := funext fun a => Fin.ext (by
    match a with
    | ⟨0, _⟩ => exact (rhs_DD_0 _ _).trans hk
    | ⟨1, _⟩ => exact rhs_DD_1 _ _)
  rw [el, er]

/-- The Gram block of a staged batch: the batch with its unit axis dropped, times its own transpose. -/
def gramBlk (x : FVec Ideal S1x512x1024 .f32) : FVec Ideal S512x512 .f32 :=
  matmul dot_S512x1024_S1024x512_S512x512_1_0_0_1_n_n none
    (truncf .bf16 (shapeCast S512x1024 x shapeCasts_S1x512x1024_S512x1024) bitsLt_bf16_f32)
    (transpose S1024x512 [1, 0] (truncf .bf16 (shapeCast S512x1024 x shapeCasts_S1x512x1024_S512x1024) bitsLt_bf16_f32) transposes_S512x1024_p1_0_S1024x512)
    (constant (F := Ideal) S512x512 .f32 0x00000000#32)

/-- Its entry `(c, d)` is the inner product of rows `c` and `d` of the batch. -/
theorem gramBlk_apply (x : FVec Ideal S1x512x1024 .f32) (c d : Fin 512) :
    gramBlk x (ix2 c d) = ∑ k : Fin 1024, x (ix3 (0 : Fin 1) c k) * x (ix3 (0 : Fin 1) d k) := by
  unfold gramBlk
  rw [matmul_zero_apply]
  refine Finset.sum_congr rfl fun k _ => ?_
  rw [transpose_ix2_apply]
  show shapeCast S512x1024 x _ (ix2 c k) * shapeCast S512x1024 x _ (ix2 d k) = _
  rw [shapeCast_1ab_ab_apply, shapeCast_1ab_ab_apply]

/-! ## The two sums -/

/-- The sum over the columns: entry `c` is the sum of row `c`. -/
theorem rowSum_apply (v : FVec Ideal S512x512 .f32) (hacc : (0x00000000#32 : BitVec 32) = 0x00000000#32) (c : Fin 512) :
    multiReduction (F := Ideal) .add [1] S512 v 0x00000000#32 reduces_S512x512_S512 (.inl rfl) hacc (ix1 c)
      = ∑ d : Fin 512, v (ix2 c d) := by
  refine (Ideal.multiReduction_add_single v 0x00000000#32 reduces_S512x512_S512 (.inl rfl) hacc (ix1 c)).trans ?_
  refine Finset.sum_congr rfl fun d _ => congrArg v (funext fun a => Fin.ext ?_)
  match a with
  | ⟨0, _⟩ => rfl
  | ⟨1, _⟩ => rfl

/-- The sum over the rows of a one-column array: its one entry is the sum of the column. -/
theorem colSum_apply (v : FVec Ideal S512x1 .f32) (hacc : (0x00000000#32 : BitVec 32) = 0x00000000#32) (u : Fin 1) :
    multiReduction (F := Ideal) .add [0] S1 v 0x00000000#32 reduces_S512x1_S1 (.inl rfl) hacc (ix1 u)
      = ∑ c : Fin 512, v (ix2 c (0 : Fin 1)) := by
  refine (Ideal.multiReduction_add_single v 0x00000000#32 reduces_S512x1_S1 (.inl rfl) hacc (ix1 u)).trans ?_
  refine Finset.sum_congr rfl fun c _ => congrArg v (funext fun a => Fin.ext ?_)
  match a with
  | ⟨0, _⟩ => rfl
  | ⟨1, _⟩ => show (u : ℕ) = 0; omega

/-- A vector laid out as one column reads, at `(c, 0)`, its entry `c`. -/
theorem column_apply (v : FVec Ideal S512 .f32) (c : Fin 512) (u : Fin 1) :
    shapeCast S512x1 v shapeCasts_S512_S512x1 (ix2 c u) = v (ix1 c) :=
  shapeCast_apply v shapeCasts_S512_S512x1 _ _ (by
    have hu : u.val = 0 := by omega
    rw [Shape.rowMajor_val_one, Shape.rowMajor_val_two]
    show c.val = c.val * 1 + u.val
    omega)

/-- A one-entry vector laid out as a one-entry matrix keeps its entry. -/
theorem unit_apply (v : FVec Ideal S1 .f32) (y : S1x1.Idx) :
    shapeCast S1x1 v shapeCasts_S1_S1x1 y = v (ix1 (0 : Fin 1)) :=
  shapeCast_apply v shapeCasts_S1_S1x1 _ _ (by
    have h0 : (y 0).val = 0 := by have : (y 0).val < 1 := (y 0).isLt; omega
    have h1 : (y 1).val = 0 := by have : (y 1).val < 1 := (y 1).isLt; omega
    rw [Shape.rowMajor_val_one, Shape.rowMajor_val_two]
    show (0 : ℕ) = (y 0).val * 1 + (y 1).val
    omega)

/-! ## The step's stored value -/

/-- The loss of the staged batch pair: the squared differences of the two Gram blocks, summed by rows. -/
def blockLoss (x0 x1 : FVec Ideal S1x512x1024 .f32) : EReal :=
  ∑ c : Fin 512, ∑ d : Fin 512,
    (gramBlk x1 (ix2 c d) - gramBlk x0 (ix2 c d)) * (gramBlk x1 (ix2 c d) - gramBlk x0 (ix2 c d))

/-- The accumulating store writes the buffer's previous value plus the loss of the staged batch pair. -/
theorem pay2_apply (x0 x1 : FVec Ideal S1x512x1024 .f32) (xo : FVec Ideal S1x1 .f32) (y : S1x1.Idx) :
    k0_pay2 (F := Ideal) x0 x1 xo y = xo y + blockLoss x0 x1 := by
  unfold k0_pay2
  show shapeCast S1x1 xo shapeCasts_S1x1_S1x1 y + shapeCast S1x1 _ shapeCasts_S1_S1x1 y = _
  rw [shapeCast_self, unit_apply, colSum_apply]
  refine congrArg (xo y + ·) (Finset.sum_congr rfl fun c _ => ?_)
  rw [column_apply, rowSum_apply]
  rfl

/-- The resetting store writes zero. -/
theorem pay1_apply (y : S1x1.Idx) : (k0_pay1 (F := Ideal)) y = 0 := by
  unfold k0_pay1
  show Ideal.ofBits .f32 0x00000000#32 = 0
  exact Ideal.ofBits_zero_f32

end Cert.KernelIdeal.Payload

end
-- ==== Proof.KernelPieces.lean ====
/-
  What each kind of grid step leaves in the one-entry output buffer, as a value.

  A step that is not the first performs one store that covers the buffer: the accumulating store, whose
  operands are the two staged batches and the buffer's previous contents, each loaded whole.
  The first step performs two covering stores: it stores zero, reads that zero back, and then performs the
  accumulating store over it; the later store is the one that remains.
-/
import proofs.«133856_j50878182588704_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later step leaves the accumulating store's value over the previous contents `xo`. -/
theorem out_later (c : Dev nD) (i : grid0.Coords) (a1 : Memref sig .tc .vmem S1x512x1024 .f32) (h1 : a1.IsWhole)
    (a2 : Memref sig .tc .vmem S1x512x1024 .f32) (h2 : a2.IsWhole) (a3 : Memref sig .tc .vmem S1x1 .f32) (h3 : a3.IsWhole)
    (hc : ¬cond0_0 i) (x0 x1 : Vec F S1x512x1024 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread,
    View.ld_unit_zero (S := S1x512x1024) hz3, View.ld_unit_zero (S := S1x1) hz2]

/-- The first step leaves the accumulating store's value over the zero it has just stored. -/
theorem out_first (c : Dev nD) (i : grid0.Coords) (a1 : Memref sig .tc .vmem S1x512x1024 .f32) (h1 : a1.IsWhole)
    (a2 : Memref sig .tc .vmem S1x512x1024 .f32) (h2 : a2.IsWhole) (a3 : Memref sig .tc .vmem S1x1 .f32) (h3 : a3.IsWhole)
    (hc : cond0_0 i) (x0 x1 : Vec F S1x512x1024 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S1x512x1024) hz3]

end Cert.KernelIdeal.Pieces

end
-- ==== Proof.KernelChain.lean ====
/-
  The idealized kernel's value.  After grid step `n` the one-entry output buffer holds the running sum of
  the batch losses of batches `0 … n`, started from zero (induction on the step: the first step stores
  zero and adds its batch's loss, every later step adds its batch's loss to what the step before left).
  The block of a flattened argument staged at step `t` is batch `t` of that argument, so the step's loss
  is the batch loss of `GramSum`.  The buffer is written back to the result array once, after the last
  step, and its one block is the whole array; the host then drops the two unit axes and divides by the
  normalising constant.
-/
import proofs.«133856_j50878182588704_1_alg».proof.Proof.KernelPayload
import proofs.«133856_j50878182588704_1_alg».proof.Proof.KernelPieces
import proofs.«133856_j50878182588704_1_alg».proof.Proof.GramSum
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Payload Cert.KernelIdeal.Pieces Cert.GramSum
open Idealize.ShloMosaic.ValueIdx

variable (m : (ℓ : Loc nD τ sig) → Buf (Elt Ideal) ℓ) (ρ : Dev nD → PrngReg)

/-! ## The staged blocks are the batches of the flattened arguments -/

/-- The two flattened arguments as the region finds them. -/
abbrev arr0 (c : Dev nD) : FVec Ideal S16x512x1024 .f32 := V m c main_v0
abbrev arr1 (c : Dev nD) : FVec Ideal S16x512x1024 .f32 := V m c main_v1

/-- The blocks of the two flattened arguments staged at step `t`. -/
abbrev blk0 (c : Dev nD) (t : Fin cfg0.N) : FVec Ideal S1x512x1024 .f32 := iblk m c 0 t
abbrev blk1 (c : Dev nD) (t : Fin cfg0.N) : FVec Ideal S1x512x1024 .f32 := iblk m c 1 t

/-- The grid step as a batch number. -/
abbrev batchOf (t : Fin cfg0.N) : Fin 16 := ⟨t.val, lt_of_lt_of_eq t.isLt N_0⟩

/-- Both input windows move along the batch axis only, one batch per step. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0)

/-- The block of the first flattened argument staged at step `t` is its batch `t`. -/
theorem blk0_apply (c : Dev nD) (t : Fin cfg0.N) (u : Fin 1) (p : Fin 512) (k : Fin 1024) :
    blk0 m c t (ix3 u p k) = arr0 m c (ix3 (batchOf t) p k) := by
  obtain ⟨h0, h1, h2, -, -, -⟩ := index_facts t
  have hu : u.val = 0 := by omega
  unfold blk0 iblk
  rw [View.read_apply]
  show V m c main_v0 _ = V m c main_v0 _
  congr 1
  funext a
  apply Fin.ext
  match a with
  | ⟨0, _⟩ => show win0_0.index t 0 * 1 + 1 * u.val = t.val; rw [h0, hu]; omega
  | ⟨1, _⟩ => show win0_0.index t 1 * 512 + 1 * p.val = p.val; rw [h1]; omega
  | ⟨2, _⟩ => show win0_0.index t 2 * 1024 + 1 * k.val = k.val; rw [h2]; omega

/-- The block of the second flattened argument staged at step `t` is its batch `t`. -/
theorem blk1_apply (c : Dev nD) (t : Fin cfg0.N) (u : Fin 1) (p : Fin 512) (k : Fin 1024) :
    blk1 m c t (ix3 u p k) = arr1 m c (ix3 (batchOf t) p k) := by
  obtain ⟨-, -, -, h0, h1, h2⟩ := index_facts t
  have hu : u.val = 0 := by omega
  unfold blk1 iblk
  rw [View.read_apply]
  show V m c main_v1 _ = V m c main_v1 _
  congr 1
  funext a
  apply Fin.ext
  match a with
  | ⟨0, _⟩ => show win0_1.index t 0 * 1 + 1 * u.val = t.val; rw [h0, hu]; omega
  | ⟨1, _⟩ => show win0_1.index t 1 * 512 + 1 * p.val = p.val; rw [h1]; omega
  | ⟨2, _⟩ => show win0_1.index t 2 * 1024 + 1 * k.val = k.val; rw [h2]; omega

/-- So the loss of the pair staged at step `t` is the loss of batch `t`. -/
theorem blockLoss_eq (c : Dev nD) (t : Fin cfg0.N) :
    blockLoss (blk0 m c t) (blk1 m c t) = batchLoss (arr0 m c) (arr1 m c) (batchOf t) := by
  unfold blockLoss batchLoss sqdiff gram
  refine Finset.sum_congr rfl fun p _ => Finset.sum_congr rfl fun q _ => ?_
  rw [gramBlk_apply, gramBlk_apply]
  simp only [blk0_apply, blk1_apply]

/-! ## The running sum over the steps -/

/-- The loss added at step `n` (zero past the grid). -/
def stepLoss (c : Dev nD) (n : ℕ) : EReal :=
  if h : n < cfg0.N then blockLoss (blk0 m c ⟨n, h⟩) (blk1 m c ⟨n, h⟩) else 0

/-- After step `n` the output buffer's entry is the running sum of the step losses. -/
theorem outsAt_apply (c : Dev nD) : ∀ (n : ℕ) (h : n < cfg0.N) (y : S1x1.Idx),
    outsAt0 m c n h y = running (stepLoss m c) n
  | 0, h, y => by
    rw [outsAt0_A m c ⟨0, h⟩ rfl, out_first]
    show k0_pay2 (F := Ideal) (blk0 m c ⟨0, h⟩) (blk1 m c ⟨0, h⟩) (k0_pay1 (F := Ideal)) y = _
    have e : stepLoss m c 0 = blockLoss (blk0 m c ⟨0, h⟩) (blk1 m c ⟨0, h⟩) := dif_pos h
    rw [pay2_apply, pay1_apply, ← e]
    rfl
  | n + 1, h, y => by
    have hN : cfg0.N = 16 := N_0
    have hB : ¬(⟨n + 1, h⟩ : Fin cfg0.N).val % 16 = 0 := by dsimp only; omega
    rw [outsAt0_B m c ⟨n + 1, h⟩ hB, out_later]
    show k0_pay2 (F := Ideal) (blk0 m c ⟨n + 1, h⟩) (blk1 m c ⟨n + 1, h⟩) (outsAt0 m c n (Nat.lt_of_succ_lt h)) y = _
    have e : stepLoss m c (n + 1) = blockLoss (blk0 m c ⟨n + 1, h⟩) (blk1 m c ⟨n + 1, h⟩) := dif_pos h
    rw [pay2_apply, outsAt_apply c n, ← e]
    rfl

/-- After the last step it is the total of `GramSum` over the two flattened arguments. -/
theorem outsAt_last (c : Dev nD) (h : 15 < cfg0.N) :
    outsAt0 m c 15 h = fun _ => total (arr0 m c) (arr1 m c) := by
  funext y
  rw [outsAt_apply, running_total (arr0 m c) (arr1 m c)]
  intro b
  have hb : b.val < cfg0.N := by rw [show cfg0.N = 16 from N_0]; exact b.isLt
  unfold stepLoss
  rw [dif_pos hb, blockLoss_eq]

end Cert.KernelIdeal.Chain

end
-- ==== Proof.KernelResult.lean ====
/-
  The idealized kernel's run, read.  The one-entry output buffer is written back once, after the last grid
  step, and then holds the total of `GramSum` over the two flattened arguments; its block is the whole
  `[1, 1]` result array.  The host lines after the region drop the two unit axes and divide by the
  normalising constant, and the host lines before it flatten each argument.
-/
import proofs.«133856_j50878182588704_1_alg».proof.Proof.KernelChain

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Chain Cert.GramSum
open Idealize.ShloMosaic.ValueIdx

variable (m : (ℓ : Loc nD τ sig) → Buf (Elt Ideal) ℓ) (ρ : Dev nD → PrngReg)

/-- The last grid step. -/
abbrev tLast : Fin cfg0.N := ⟨15, by rw [show cfg0.N = 16 from N_0]; decide⟩

/-- What the `[1, 1]` result array holds after the region: the total. -/
abbrev acc (c : Dev nD) : Buf (Elt Ideal) ((c : Thread nD τ).loc main_v2) := fun _ => total (arr0 m c) (arr1 m c)

/-- The one write-back, after the last step, writes the total. -/
theorem flushed_eq (c : Dev nD) (t : Fin cfg0.N) (hf : (cfg0.win 2).flush t = true) :
    (dats m 0 c).flushed 2 t = ((cfg0.win 2).blk t).view.read (Elt Ideal) (acc m c) := by
  have hN : cfg0.N = 16 := N_0
  have h15 : t.val = 15 := by have := (flush0_2 t).mp hf; have := t.isLt; omega
  obtain rfl : t = tLast := Fin.ext h15
  show (cfg0.win 2).cut (grid0.coords tLast) ((dats m 0 c).after 2 tLast) = _
  rw [after0_2]
  show (cfg0.win 2).cut (grid0.coords tLast) (outsAt0 m c 15 tLast.isLt) = _
  rw [outsAt_last]
  funext x
  rw [View.read_apply]
  rfl

/-- The output window's block index is `(0, 0)` at the last step. -/
theorem last_index : win0_2.index tLast (0 : Fin 2) = 0 ∧ win0_2.index tLast (1 : Fin 2) = 0 := by decide +kernel

/-- So the result array ends holding the total: the block written back after the last step is the whole array. -/
theorem final (c : Dev nD) : (dats m 0 c).arrAt 2 cfg0.N = acc m c :=
  (dats m 0 c).arrAt_eq_of_cover 2 (acc m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      obtain ⟨e0, e1⟩ := last_index
      match a with
      | ⟨0, _⟩ => show win0_2.index tLast (0 : Fin 2) * 1 ≤ (i 0 : Nat) ∧ (i 0 : Nat) < win0_2.index tLast (0 : Fin 2) * 1 + 1
                  rw [e0]; omega
      | ⟨1, _⟩ => show win0_2.index tLast (1 : Fin 2) * 1 ≤ (i 1 : Nat) ∧ (i 1 : Nat) < win0_2.index tLast (1 : Fin 2) * 1 + 1
                  rw [e1]; omega⟩

/-- The host lines before the region flatten the two arguments. -/
theorem arr0_eq (c : Dev nD) :
    arr0 m c = shapeCast S16x512x1024 (m ((c : Thread nD τ).loc main_arg0)) shapeCasts_S16x512x32x32_S16x512x1024 := by
  show StableHlo.after hostOps0 (fun b => m (c, b)) (Proc.devRef .tc main_v0) = _
  after_results
  rfl
theorem arr1_eq (c : Dev nD) :
    arr1 m c = shapeCast S16x512x1024 (m ((c : Thread nD τ).loc main_arg1)) shapeCasts_S16x512x32x32_S16x512x1024 := by
  show StableHlo.after hostOps0 (fun b => m (c, b)) (Proc.devRef .tc main_v1) = _
  after_results
  rfl

/-- The scalar the program returns, as a function of the total before the division. -/
def normalised (x : EReal) : S_.Idx → EReal :=
  Host.divf (F := Ideal) (fun _ => x) (constant (F := Ideal) S_ .f32 0x53800000#32)

/-- The host lines after the region: the result array's entry divided by the normalising constant. -/
theorem tail_eq (c : Dev nD) :
    Pipeline.afterTail₀ cfgs (dats m) 0 (V0 m) [hostOps1] c main_v4
      = normalised (total (arr0 m c) (arr1 m c)) := by
  unfold Pipeline.afterTail₀
  show StableHlo.after hostOps1 _ (Proc.devRef .tc main_v4) = _
  after_results
  rw [(Pipeline.withArrays_arr spec0 launch0.win.arr_inj c _ _ 2).trans (final m c)]
  rfl

/-- The run: the result at the normalised total, the arguments unchanged. -/
theorem run : θ_run defs (onTc (τ := τ) (main (F := Ideal))) ⟨m, fun _ => 0, ρ⟩ fun r => ∀ c : Dev nD,
      r.2.mem ((c.tc : Thread nD τ).loc main_v4) = normalised (total (arr0 m c) (arr1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.lean ====
/-
  The certificate: a Gram-matrix loss.  For each of sixteen batches both programs form the Gram matrices
  `f fᵀ` of the two flattened feature arrays, square the difference entry by entry and add everything up;
  the sum is divided by one normalising constant (the same word in both programs).

  The kernel walks the batches on a grid, adding each batch's loss (rows summed over columns, then the row
  sums summed) into a one-entry buffer that it resets to zero at the first step; the reference sums the
  squared differences over the whole `[16, 512, 512]` index set at once.  Over the extended reals both are
  the same number because addition is commutative and associative (`GramSum`): the kernel's side is
  `KernelResult.run`, the reference's `RefValue.sum_eq_total`, and the final division is applied to equal
  arguments.  The precondition is not needed for the value.

  The three frames: the two kernel programs' are the generated frame certificates; the reference's is its
  generated run with the result dropped.  The idealisation rewrote nothing, so `preserves` is `True`.
-/
import proofs.«133856_j50878182588704_1_alg».proof.Defs
import proofs.«133856_j50878182588704_1_alg».proof.Proof.Gen.Kernel.Frame
import proofs.«133856_j50878182588704_1_alg».proof.Proof.Gen.Pre_finite_inputs
import proofs.«133856_j50878182588704_1_alg».proof.Proof.RefValue
import proofs.«133856_j50878182588704_1_alg».proof.Proof.KernelResult

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the normalised total of the batch losses of the flattened arguments. -/
theorem algebraic : Cert.algebraic_KernelIdeal_ReferenceIdeal := by
  intro m ρ m' ρ' _ hagree
  refine ⟨fun c => Cert.KernelIdeal.Result.normalised
      (Cert.GramSum.total (Cert.KernelIdeal.Chain.arr0 m c) (Cert.KernelIdeal.Chain.arr1 m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefValue.sum_eq_total, (hagree c).1, (hagree c).2]
  show _ = Cert.KernelIdeal.Result.normalised
    (Cert.GramSum.total (Cert.KernelIdeal.Chain.arr0 m c) (Cert.KernelIdeal.Chain.arr1 m c))
  rw [Cert.KernelIdeal.Result.arr0_eq, Cert.KernelIdeal.Result.arr1_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
